-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 66
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S_, .f32⟩
  | .hbm, ⟨49, _⟩ => ⟨S100000x128, .f32⟩
  | .hbm, ⟨50, _⟩ => ⟨S600000x1, .i32⟩
  | .hbm, ⟨51, _⟩ => ⟨S100000x128, .f32⟩
  | .hbm, ⟨52, _⟩ => ⟨S_, .f32⟩
  | .hbm, ⟨53, _⟩ => ⟨S600000, .f32⟩
  | .hbm, ⟨54, _⟩ => ⟨S_, .f32⟩
  | .hbm, ⟨55, _⟩ => ⟨S100000, .f32⟩
  | .hbm, ⟨56, _⟩ => ⟨S600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S1x600000, .i32⟩
  | .hbm, ⟨47, _⟩ => ⟨S600000, .i32⟩
  | .hbm, ⟨48, _⟩ => ⟨S1x600000, .i32⟩
  | .hbm, ⟨49, _⟩ => ⟨S600000, .i32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S_, .f32⟩
  | .hbm, ⟨60, _⟩ => ⟨S100000x128, .f32⟩
  | .hbm, ⟨61, _⟩ => ⟨S600000x1, .i32⟩
  | .hbm, ⟨62, _⟩ => ⟨S100000x128, .f32⟩
  | .hbm, ⟨63, _⟩ => ⟨S_, .f32⟩
  | .hbm, ⟨64, _⟩ => ⟨S600000, .f32⟩
  | .hbm, ⟨65, _⟩ => ⟨S_, .f32⟩
  | .hbm, ⟨66, _⟩ => ⟨S100000, .f32⟩
  | .hbm, ⟨67, _⟩ => ⟨S600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageSpec.lean ====
/-
  The mathematics both programs compute, stated once over literal shapes and importing no program.

  A GraphSAGE layer with mean aggregation sends node features `x` (100000 nodes, 128 features each) to
  `agg · W_l + b + x · W_r`, where `agg` is the mean of the features of a node's in-neighbours. The aggregation
  (a gather along the edges' sources, a scatter-add into their destinations, a division by the clamped in-degree)
  is the same chain of host operations in both programs, so it stays an abstract function `agg` here: only the
  two matrix products, the bias and the rectifier are written out, index by index, as sums over the 128 features.
-/
import Idealize.ShloMosaic.PureOps.Ideal
import Idealize.ShloMosaic.Lib.ValueIdx

noncomputable section

namespace Cert.Sage

open Idealize.ShloMosaic Idealize.ShloMosaic.ValueIdx

/-- Node features: 100000 rows of 128. -/
abbrev Nodes : Shape := ⟨2, ![100000, 128]⟩
/-- A weight matrix: 128 by 128. -/
abbrev Wts : Shape := ⟨2, ![128, 128]⟩

/-- Entry `(p, q)` of one linear stage: `(∑ₖ a[p,k]·W_l[k,q] + b[q]) + ∑ₖ x[p,k]·W_r[k,q]`, in this association. -/
def linAt (a x : FVec Ideal Nodes .f32) (Wl : FVec Ideal Wts .f32) (b : Fin 128 → EReal) (Wr : FVec Ideal Wts .f32)
    (p : Fin 100000) (q : Fin 128) : EReal :=
  ((∑ k : Fin 128, a (ix2 p k) * Wl (ix2 k q)) + b q) + ∑ k : Fin 128, x (ix2 p k) * Wr (ix2 k q)

/-- The linear stage as an array of node features. -/
def lin (a x : FVec Ideal Nodes .f32) (Wl : FVec Ideal Wts .f32) (b : Fin 128 → EReal) (Wr : FVec Ideal Wts .f32) :
    FVec Ideal Nodes .f32 :=
  fun i => linAt a x Wl b Wr (i 0) (i 1)

theorem lin_apply (a x : FVec Ideal Nodes .f32) (Wl : FVec Ideal Wts .f32) (b : Fin 128 → EReal) (Wr : FVec Ideal Wts .f32)
    (p : Fin 100000) (q : Fin 128) : lin a x Wl b Wr (ix2 p q) = linAt a x Wl b Wr p q := rfl

/-- The rectifier, entry by entry: `max y 0` on the extended reals. -/
def relu (y : FVec Ideal Nodes .f32) : FVec Ideal Nodes .f32 := fun i => max (y i) 0

theorem relu_apply (y : FVec Ideal Nodes .f32) (i : Nodes.Idx) : relu y i = max (y i) 0 := rfl

/-- Two stacked layers over one edge list `e`: the hidden features `h` are the rectified first stage of `x` and its
    aggregate; the result is the second stage of `h` and ITS aggregate. `agg` is whatever aggregation the programs share. -/
def twoLayers {E : Type} (agg : FVec Ideal Nodes .f32 → E → FVec Ideal Nodes .f32) (x : FVec Ideal Nodes .f32) (e : E)
    (W1l : FVec Ideal Wts .f32) (b1 : Fin 128 → EReal) (W1r W2l : FVec Ideal Wts .f32) (b2 : Fin 128 → EReal)
    (W2r : FVec Ideal Wts .f32) : FVec Ideal Nodes .f32 :=
  lin (agg (relu (lin (agg x e) x W1l b1 W1r)) e) (relu (lin (agg x e) x W1l b1 W1r)) W2l b2 W2r

end Cert.Sage

end
-- ==== Proof.RefValue.lean ====
/-
  The reference's result is the specification.

  The reference computes two GraphSAGE layers one host operation at a time. Read at an index, each layer's linear
  stage is a sum over the 128 features of the aggregate times the left weights, plus the bias, plus a sum over the
  128 features of the layer's input times the right weights; the first layer is rectified by a maximum against a
  broadcast zero. The mean aggregation (gather along the edges, scatter-add, division by the clamped in-degree) is
  never read at an index: the second layer's aggregation is the same chain of operations as the first's, applied to
  the hidden features, so the two agree by unfolding names.
-/
import proofs.«120012_j16690242913041_1_alg».proof.Proof.Gen.ReferenceIdeal.Read
import proofs.«120012_j16690242913041_1_alg».proof.Proof.SageSpec
import Idealize.ShloMosaic.PureOps.Ideal.Laws
import Idealize.ShloMosaic.Lib.ValueIdx

noncomputable section

namespace Cert.Sage.Ref
open Cert.ReferenceIdeal Cert.ReferenceIdeal.Read Idealize.ShloMosaic Idealize.ShloMosaic.ValueIdx

/-- The mean aggregation as the reference's host operations compute it: stage %22 as a function of the features it gathers and the edge list. -/
def agg (h : (⟨S100000x128, .f32⟩ : BufTy).Contents (Elt Ideal)) (e : (⟨S2x600000, .i32⟩ : BufTy).Contents (Elt Ideal)) :
    (⟨S100000x128, .f32⟩ : BufTy).Contents (Elt Ideal) := val_main_v22 (F := Ideal) h e

/-! ## The index functions of the four matrix products and the two biases, at the entry `(p, q)`

Each product reads its left operand at row `p`, column `k`, and its right operand at row `k`, column `q`; each bias,
broadcast first to one row and then to every row, is read at `q`. -/

theorem lidx23 (p : Fin 100000) (q k : Fin 128) : lidx_main_v23 (ix2 p q) k = ix2 p k :=
  funext fun a => Fin.ext (by match a with | ⟨0, _⟩ => rfl | ⟨1, _⟩ => rfl)
theorem ridx23 (p : Fin 100000) (q k : Fin 128) : ridx_main_v23 (ix2 p q) k = ix2 k q :=
  funext fun a => Fin.ext (by match a with | ⟨0, _⟩ => rfl | ⟨1, _⟩ => rfl)
theorem lidx27 (p : Fin 100000) (q k : Fin 128) : lidx_main_v27 (ix2 p q) k = ix2 p k :=
  funext fun a => Fin.ext (by match a with | ⟨0, _⟩ => rfl | ⟨1, _⟩ => rfl)
theorem ridx27 (p : Fin 100000) (q k : Fin 128) : ridx_main_v27 (ix2 p q) k = ix2 k q :=
  funext fun a => Fin.ext (by match a with | ⟨0, _⟩ => rfl | ⟨1, _⟩ => rfl)
theorem bidx25 (p : Fin 100000) (q : Fin 128) : idx_main_v24 (idx_main_v25 (ix2 p q)) = ix1 q :=
  funext fun a => Fin.ext (by match a with | ⟨0, _⟩ => rfl)
theorem lidx53 (p : Fin 100000) (q k : Fin 128) : lidx_main_v53 (ix2 p q) k = ix2 p k :=
  funext fun a => Fin.ext (by match a with | ⟨0, _⟩ => rfl | ⟨1, _⟩ => rfl)
theorem ridx53 (p : Fin 100000) (q k : Fin 128) : ridx_main_v53 (ix2 p q) k = ix2 k q :=
  funext fun a => Fin.ext (by match a with | ⟨0, _⟩ => rfl | ⟨1, _⟩ => rfl)
theorem lidx57 (p : Fin 100000) (q k : Fin 128) : lidx_main_v57 (ix2 p q) k = ix2 p k :=
  funext fun a => Fin.ext (by match a with | ⟨0, _⟩ => rfl | ⟨1, _⟩ => rfl)
theorem ridx57 (p : Fin 100000) (q k : Fin 128) : ridx_main_v57 (ix2 p q) k = ix2 k q :=
  funext fun a => Fin.ext (by match a with | ⟨0, _⟩ => rfl | ⟨1, _⟩ => rfl)
theorem bidx55 (p : Fin 100000) (q : Fin 128) : idx_main_v54 (idx_main_v55 (ix2 p q)) = ix1 q :=
  funext fun a => Fin.ext (by match a with | ⟨0, _⟩ => rfl)

/-! ## The first layer -/

/-- Stage %28 is the linear stage of the input features and their aggregate: entry `(p, q)` is
    `(∑ₖ agg[p,k]·x2[k,q] + x3[q]) + ∑ₖ x0[p,k]·x4[k,q]`, the sums and the additions in the specification's order. -/
theorem lin1 (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v28 (F := Ideal) x0 x1 x2 x3 x4 = Cert.Sage.lin (agg x0 x1) x0 x2 (fun q => x3 (ix1 q)) x4 := by
  funext i
  obtain ⟨p, q, rfl⟩ : ∃ (p : Fin 100000) (q : Fin 128), i = ix2 p q := ⟨i 0, i 1, eq_ix2 i⟩
  rw [val_main_v28_apply, val_main_v26_apply, val_main_v23_apply, val_main_v27_apply, val_main_v25_apply, val_main_v24_apply,
    Cert.Sage.lin_apply]
  simp only [lidx23, ridx23, lidx27, ridx27, bidx25, Ideal.addf_def, Cert.Sage.linAt, agg]

/-- Stage %29 is the rectifier of stage %28: the maximum against a broadcast of the constant whose bits are zero,
    and those bits are the extended real `0`. -/
theorem relu1 (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v29 (F := Ideal) x0 x1 x2 x3 x4 = Cert.Sage.relu (val_main_v28 (F := Ideal) x0 x1 x2 x3 x4) := by
  funext i
  rw [val_main_v29_apply, val_main_call0_v0_apply, val_main_call0_cst_apply, Cert.Sage.relu_apply,
    Ideal.maximumf_def, Ideal.ofBits_def, Ideal.ofBits_zero_f32]

/-- The hidden features: the rectified first linear stage. -/
theorem hidden (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v29 (F := Ideal) x0 x1 x2 x3 x4
      = Cert.Sage.relu (Cert.Sage.lin (agg x0 x1) x0 x2 (fun q => x3 (ix1 q)) x4) := by
  rw [relu1, lin1]

/-! ## The second layer -/

/-- Stage %52 is the aggregation of the hidden features: stages %30 … %52 are, name by name, the operations of stages
    %0 … %22 with the same records and constants, the gather reading stage %29 where the first one read the input. -/
theorem agg2 (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v52 (F := Ideal) x0 x1 x2 x3 x4 = agg (val_main_v29 (F := Ideal) x0 x1 x2 x3 x4) x1 := rfl

/-- Stage %58 is the linear stage of the hidden features and their aggregate. -/
theorem lin2 (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v58 (F := Ideal) x0 x1 x2 x3 x4 x5 x6 x7
      = Cert.Sage.lin (agg (val_main_v29 (F := Ideal) x0 x1 x2 x3 x4) x1) (val_main_v29 (F := Ideal) x0 x1 x2 x3 x4)
          x5 (fun q => x6 (ix1 q)) x7 := by
  funext i
  obtain ⟨p, q, rfl⟩ : ∃ (p : Fin 100000) (q : Fin 128), i = ix2 p q := ⟨i 0, i 1, eq_ix2 i⟩
  rw [val_main_v58_apply, val_main_v56_apply, val_main_v53_apply, val_main_v57_apply, val_main_v55_apply, val_main_v54_apply,
    Cert.Sage.lin_apply, agg2]
  simp only [lidx53, ridx53, lidx57, ridx57, bidx55, Ideal.addf_def, Cert.Sage.linAt]

/-! ## The result -/

theorem value (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v58 (F := Ideal) x0 x1 x2 x3 x4 x5 x6 x7
      = Cert.Sage.twoLayers agg x0 x1 x2 (fun q => x3 (ix1 q)) x4 x5 (fun q => x6 (ix1 q)) x7 := by
  rw [lin2, hidden]
  rfl

end Cert.Sage.Ref

end
-- ==== Proof.StageBlocks.lean ====
/-
  The arithmetic of one block of a fused region, entry by entry.

  A region's body multiplies a 5000-row block of the aggregate and a 5000-row block of the features by the two
  128-by-128 weight matrices, each product accumulated from zero, adds the bias row to the first product and the
  second product to that, and (in the first region only) takes the maximum with zero. Changes of float format are
  the identity on the extended reals. Entry `(p, q)` of a product is a sum over the 128 shared features of row `p`
  of the block against column `q` of the weights, so entry `(p, q)` of what the body stores depends on row `p` of its
  two blocks only: it is the specification's stage `Cert.Sage.lin` at whatever array row that block row came from.
-/
import proofs.«120012_j16690242913041_1_alg».proof.Proof.Gen.KernelIdeal.Frame
import proofs.«120012_j16690242913041_1_alg».proof.Proof.SageSpec
import Idealize.ShloMosaic.Lib.Pipeline.Value
import Idealize.ShloMosaic.Lib.ValueIdx
import Idealize.ShloMosaic.PureOps.Ideal.Laws

set_option maxRecDepth 16384

noncomputable section

namespace Cert.Sage.Region

open Cert.KernelIdeal Cert.KernelIdeal.Gen Cert.Sage
open Idealize.ShloMosaic Idealize.ShloMosaic.TcCoe Idealize.ShloMosaic.ValueIdx Idealize.SL.Sem
open Idealize.ShloMosaic.Pipeline (Dat)

/-! ## A block's product with a weight matrix, entry by entry -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of a 5000-row block times a 128-by-128 matrix, accumulated from zero, is the sum over the 128
    shared features of row `p` of the block against column `q` of the matrix. -/
theorem block_product (A : FVec Ideal S5000x128 .bf16) (B : FVec Ideal S128x128 .bf16) (p : Fin 5000) (q : Fin 128) :
    matmul dot_S5000x128_S128x128_S5000x128_1_0_0_1_n_n none A B (constant S5000x128 .f32 0x00000000#32) (ix2 p q)
      = ∑ k : Fin 128, A (ix2 p k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row, broadcast down the block's 5000 rows, reads at `(p, q)` its entry `(0, q)`. -/
theorem bias_rows (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => by
    match a with
    | ⟨0, _⟩ => rfl
    | ⟨1, _⟩ => rfl)

/-! ## The two bodies' stored values, entry by entry -/

/-- The first region's body: the rectified stage of the block's rows. -/
theorem body0_entry (a x : Vec Ideal S5000x128 .f32) (wl wr : Vec Ideal S128x128 .f32) (b : Vec Ideal S1x128 .f32)
    (p : Fin 5000) (q : Fin 128) :
    k0_pay1 (F := Ideal) a x wl wr b (ix2 p q)
      = max (((∑ k : Fin 128, a (ix2 p k) * wl (ix2 k q)) + b (ix2 0 q)) + ∑ k : Fin 128, x (ix2 p k) * wr (ix2 k q)) 0 := by
  unfold k0_pay1
  simp only [maximumf_apply, addf_apply, broadcast_apply, block_product, bias_rows, truncf_apply, shapeCast_self,
    Ideal.ofBits_def, Ideal.ofBits_zero_f32]

/-- The second region's body: the stage of the block's rows, not rectified. -/
theorem body1_entry (a x : Vec Ideal S5000x128 .f32) (wl wr : Vec Ideal S128x128 .f32) (b : Vec Ideal S1x128 .f32)
    (p : Fin 5000) (q : Fin 128) :
    k1_pay1 (F := Ideal) a x wl wr b (ix2 p q)
      = ((∑ k : Fin 128, a (ix2 p k) * wl (ix2 k q)) + b (ix2 0 q)) + ∑ k : Fin 128, x (ix2 p k) * wr (ix2 k q) := by
  unfold k1_pay1
  simp only [addf_apply, block_product, bias_rows, truncf_apply, shapeCast_self]

/-! ## A block's entry is the whole arrays' stage at the row the block sits at

  Stated over plain variables: `a`, `x` are the blocks the body loaded, `A`, `X` the whole arrays, `j` an index
  inside the block and `i` the array index it lands on. All that is asked of the blocks is that row `j 0` of each is
  row `i 0` of its array and that the weights and the bias are read whole. -/

theorem body0_is_stage (A X : FVec Ideal Nodes .f32) (Wl Wr : FVec Ideal Wts .f32) (B : Fin 128 → EReal)
    (a x : Vec Ideal S5000x128 .f32) (wl wr : Vec Ideal S128x128 .f32) (b : Vec Ideal S1x128 .f32)
    (i : Nodes.Idx) (j : S5000x128.Idx)
    (ha : ∀ k : Fin 128, a (ix2 (j 0) k) = A (ix2 (i 0) k)) (hx : ∀ k : Fin 128, x (ix2 (j 0) k) = X (ix2 (i 0) k))
    (hwl : ∀ k : Fin 128, wl (ix2 k (j 1)) = Wl (ix2 k (i 1))) (hwr : ∀ k : Fin 128, wr (ix2 k (j 1)) = Wr (ix2 k (i 1)))
    (hb : b (ix2 0 (j 1)) = B (i 1)) :
    k0_pay1 (F := Ideal) a x wl wr b j = relu (lin A X Wl B Wr) i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  rw [body0_entry, relu_apply, lin_apply]
  unfold linAt
  simp only [show ∀ k : Fin 128, a (ix2 p k) = A (ix2 r k) from ha, show ∀ k : Fin 128, x (ix2 p k) = X (ix2 r k) from hx,
    show ∀ k : Fin 128, wl (ix2 k q) = Wl (ix2 k s) from hwl, show ∀ k : Fin 128, wr (ix2 k q) = Wr (ix2 k s) from hwr,
    show b (ix2 0 q) = B s from hb]

theorem body1_is_stage (A X : FVec Ideal Nodes .f32) (Wl Wr : FVec Ideal Wts .f32) (B : Fin 128 → EReal)
    (a x : Vec Ideal S5000x128 .f32) (wl wr : Vec Ideal S128x128 .f32) (b : Vec Ideal S1x128 .f32)
    (i : Nodes.Idx) (j : S5000x128.Idx)
    (ha : ∀ k : Fin 128, a (ix2 (j 0) k) = A (ix2 (i 0) k)) (hx : ∀ k : Fin 128, x (ix2 (j 0) k) = X (ix2 (i 0) k))
    (hwl : ∀ k : Fin 128, wl (ix2 k (j 1)) = Wl (ix2 k (i 1))) (hwr : ∀ k : Fin 128, wr (ix2 k (j 1)) = Wr (ix2 k (i 1)))
    (hb : b (ix2 0 (j 1)) = B (i 1)) :
    k1_pay1 (F := Ideal) a x wl wr b j = lin A X Wl B Wr i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  rw [body1_entry, lin_apply]
  unfold linAt
  simp only [show ∀ k : Fin 128, a (ix2 p k) = A (ix2 r k) from ha, show ∀ k : Fin 128, x (ix2 p k) = X (ix2 r k) from hx,
    show ∀ k : Fin 128, wl (ix2 k q) = Wl (ix2 k s) from hwl, show ∀ k : Fin 128, wr (ix2 k q) = Wr (ix2 k s) from hwr,
    show b (ix2 0 q) = B s from hb]

theorem zero_offsets : (![0, 0] : Fin 2 → Nat) = fun _ => 0 := funext fun a => by fin_cases a <;> rfl

end Cert.Sage.Region

end
-- ==== Proof.Region0Value.lean ====
/-
  What the first fused region leaves in its output array: the rectified linear stage of the arrays it reads.

  The region walks the 100000 rows in 20 blocks of 5000. At block `t` its body reads rows `5000 t … 5000 t + 4999`
  of the aggregate and of the features, the two weight matrices and the bias row whole, and writes its result back
  as the same rows of the output. So block `t` of the output is block `t` of ONE function of the whole arrays, the
  stage; the 20 blocks tile the array (row `r` lies in block `r / 5000`), so after the last write-back the array
  IS that function.
-/
import proofs.«120012_j16690242913041_1_alg».proof.Proof.StageBlocks

set_option maxRecDepth 16384

noncomputable section

namespace Cert.Sage.Region

open Cert.KernelIdeal Cert.KernelIdeal.Gen Cert.Sage
open Idealize.ShloMosaic Idealize.ShloMosaic.TcCoe Idealize.ShloMosaic.ValueIdx Idealize.SL.Sem
open Idealize.ShloMosaic.Pipeline (Dat)

section First
variable (V : (c : Dev nD) → (b : Ref sig .tc) → Buf (Elt Ideal) ((c : Thread nD τ).loc b))

/-- Where the first region's windows sit at grid point `t`: the two row-blocked inputs move with the output, at block
    row `t`; every window starts at column 0; the weights and the bias are read whole at every point. -/
theorem where0 : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The stage the first region computes, of the arrays as the region finds them. -/
abbrev stage0 (c : Dev nD) : FVec Ideal Nodes .f32 :=
  relu (lin (V c main_v22) (V c main_arg0) (V c main_arg2) (fun q => V c main_v23 (ix2 (0 : Fin 1) q)) (V c main_arg4))

/-- What point `t` writes back is block `t` of that stage. -/
theorem written0 (c : Dev nD) (t : Fin cfg0.N) :
    (dat0 V c).flushed 5 t = ((cfg0.win 5).blk t).view.read (Elt Ideal) (stage0 V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  obtain ⟨e50, e51, e00, e01, e10, e11, e20, e21, e30, e31, e40, e41⟩ := where0 t
  funext j
  refine body0_is_stage (V c main_v22) (V c main_arg0) (V c main_arg2) (V c main_arg4) (fun q => V c main_v23 (ix2 (0 : Fin 1) q))
    (iblk0 V c 0 t) (iblk0 V c 1 t) (iblk0 V c 2 t) (iblk0 V c 4 t) (iblk0 V c 3 t) (((cfg0.win 5).blk t).view.emb j) j ?_ ?_ ?_ ?_ ?_
  · intro k
    refine congrArg (V c main_v22) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · intro k
    refine congrArg (V c main_arg0) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · intro k
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · intro k
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 128 + 1 * (j 1).val = win0_5.index t (1 : Fin 2) * 128 + 1 * (j 1).val; omega
  · refine congrArg (V c main_v23) (funext fun a => Fin.ext ?_)
    match a with
    | ⟨0, _⟩ => show win0_3.index t (0 : Fin 2) * 1 + 1 * 0 = 0; omega
    | ⟨1, _⟩ => show win0_3.index t (1 : Fin 2) * 128 + 1 * (j 1).val = win0_5.index t (1 : Fin 2) * 128 + 1 * (j 1).val; omega

/-- An index of the output array lies in point `t`'s block iff each coordinate lies in the block's range. -/
theorem in_block0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- The 20 blocks tile the array: row `r` lies in block `r / 5000`. -/
theorem tiled0 (i : S100000x128.Idx) :
    ∃ t : Fin cfg0.N, (cfg0.win 5).flush t = true ∧ i ∈ ((cfg0.win 5).blk t).view.set := by
  have h0 : (i 0).val < 100000 := (i 0).isLt
  have h1 : (i 1).val < 128 := (i 1).isLt
  have hN : (i 0).val / 5000 < cfg0.N := by rw [show cfg0.N = 20 from N_0]; omega
  obtain ⟨e50, e51, -⟩ := where0 ⟨(i 0).val / 5000, hN⟩
  have e50' : win0_5.index ⟨(i 0).val / 5000, hN⟩ (0 : Fin 2) = (i 0).val / 5000 := e50
  refine ⟨⟨(i 0).val / 5000, hN⟩, flush0_5 _, ?_⟩
  rw [in_block0]
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    omega
  | ⟨1, _⟩ =>
    show win0_5.index ⟨(i 0).val / 5000, hN⟩ (1 : Fin 2) * 128 ≤ (i 1).val
      ∧ (i 1).val < win0_5.index ⟨(i 0).val / 5000, hN⟩ (1 : Fin 2) * 128 + 128
    omega

/-- After the first region's last write-back its output array is the rectified stage of the arrays it read. -/
theorem value0 (c : Dev nD) : (dat0 V c).arrAt 5 cfg0.N = stage0 V c :=
  (dat0 V c).arrAt_eq_of_cover 5 (stage0 V c) (fun t _ => written0 V c t) (fun i => tiled0 i)

end First

end Cert.Sage.Region

end
-- ==== Proof.Region1Value.lean ====
/-
  What the second fused region leaves in its output array: the linear stage of the arrays it reads.

  The region walks the 100000 rows in 20 blocks of 5000. At block `t` its body reads rows `5000 t … 5000 t + 4999`
  of the aggregate and of the features, the two weight matrices and the bias row whole, and writes its result back
  as the same rows of the output. So block `t` of the output is block `t` of ONE function of the whole arrays, the
  stage; the 20 blocks tile the array (row `r` lies in block `r / 5000`), so after the last write-back the array
  IS that function.
-/
import proofs.«120012_j16690242913041_1_alg».proof.Proof.StageBlocks

set_option maxRecDepth 16384

noncomputable section

namespace Cert.Sage.Region

open Cert.KernelIdeal Cert.KernelIdeal.Gen Cert.Sage
open Idealize.ShloMosaic Idealize.ShloMosaic.TcCoe Idealize.ShloMosaic.ValueIdx Idealize.SL.Sem
open Idealize.ShloMosaic.Pipeline (Dat)

section Second
variable (V : (c : Dev nD) → (b : Ref sig .tc) → Buf (Elt Ideal) ((c : Thread nD τ).loc b))

/-- Where the second region's windows sit at grid point `t`: the two row-blocked inputs move with the output, at block
    row `t`; every window starts at column 0; the weights and the bias are read whole at every point. -/
theorem where1 : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The stage the second region computes, of the arrays as the region finds them. -/
abbrev stage1 (c : Dev nD) : FVec Ideal Nodes .f32 :=
  lin (V c main_v43) (V c main_v24) (V c main_arg5) (fun q => V c main_v44 (ix2 (0 : Fin 1) q)) (V c main_arg7)

/-- What point `t` writes back is block `t` of that stage. -/
theorem written1 (c : Dev nD) (t : Fin cfg1.N) :
    (dat1 V c).flushed 5 t = ((cfg1.win 5).blk t).view.read (Elt Ideal) (stage1 V c) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  obtain ⟨e50, e51, e00, e01, e10, e11, e20, e21, e30, e31, e40, e41⟩ := where1 t
  funext j
  refine body1_is_stage (V c main_v43) (V c main_v24) (V c main_arg5) (V c main_arg7) (fun q => V c main_v44 (ix2 (0 : Fin 1) q))
    (iblk1 V c 0 t) (iblk1 V c 1 t) (iblk1 V c 2 t) (iblk1 V c 4 t) (iblk1 V c 3 t) (((cfg1.win 5).blk t).view.emb j) j ?_ ?_ ?_ ?_ ?_
  · intro k
    refine congrArg (V c main_v43) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · intro k
    refine congrArg (V c main_v24) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · intro k
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  · intro k
    refine congrArg (V c main_arg7) (funext fun a => Fin.ext ?_)
    match a with
    | ⟨0, _⟩ => show win1_4.index t (0 : Fin 2) * 128 + 1 * k.val = k.val; omega
    | ⟨1, _⟩ => show win1_4.index t (1 : Fin 2) * 128 + 1 * (j 1).val = win1_5.index t (1 : Fin 2) * 128 + 1 * (j 1).val; omega
  · refine congrArg (V c main_v44) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega

/-- An index of the output array lies in point `t`'s block iff each coordinate lies in the block's range. -/
theorem in_block1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v45).slice (win1_5.rect t)).set ↔ _
  rw [View.set_slice_whole, Rect.mem_set_unit]
  exact Iff.rfl

/-- The 20 blocks tile the array: row `r` lies in block `r / 5000`. -/
theorem tiled1 (i : S100000x128.Idx) :
    ∃ t : Fin cfg1.N, (cfg1.win 5).flush t = true ∧ i ∈ ((cfg1.win 5).blk t).view.set := by
  have h0 : (i 0).val < 100000 := (i 0).isLt
  have h1 : (i 1).val < 128 := (i 1).isLt
  have hN : (i 0).val / 5000 < cfg1.N := by rw [show cfg1.N = 20 from N_1]; omega
  obtain ⟨e50, e51, -⟩ := where1 ⟨(i 0).val / 5000, hN⟩
  have e50' : win1_5.index ⟨(i 0).val / 5000, hN⟩ (0 : Fin 2) = (i 0).val / 5000 := e50
  refine ⟨⟨(i 0).val / 5000, hN⟩, flush1_5 _, ?_⟩
  rw [in_block1]
  intro a
  match a with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    omega
  | ⟨1, _⟩ =>
    show win1_5.index ⟨(i 0).val / 5000, hN⟩ (1 : Fin 2) * 128 ≤ (i 1).val
      ∧ (i 1).val < win1_5.index ⟨(i 0).val / 5000, hN⟩ (1 : Fin 2) * 128 + 128
    omega

/-- After the second region's last write-back its output array is the stage of the arrays it read. -/
theorem value1 (c : Dev nD) : (dat1 V c).arrAt 5 cfg1.N = stage1 V c :=
  (dat1 V c).arrAt_eq_of_cover 5 (stage1 V c) (fun t _ => written1 V c t) (fun i => tiled1 i)

end Second

end Cert.Sage.Region

end
-- ==== Proof.HostValues.lean ====
/-
  What the kernel program's host operations leave in the buffers its two regions read.

  Before each region the program aggregates node features along the edges on the host: it normalises the edge
  sources (a negative source counts from the end), gathers the features' rows at the sources, adds them up at the
  destinations, counts each node's in-degree the same way, and divides by the in-degree clamped below by one. The
  first stretch applies this chain to the input features, the second to the first region's output, over the same
  edge list; each stretch also reshapes one bias vector to a single row. Every other buffer a region reads is an
  argument no host operation writes, so it still holds its launch contents.
-/
import proofs.«120012_j16690242913041_1_alg».proof.Proof.Gen.KernelIdeal.Frame
import Idealize.ShloMosaic.Lib.StableHlo.Run
import Idealize.ShloMosaic.Lib.ValueIdx
import Idealize.ShloMosaic.Lib.ValueLayout

noncomputable section

namespace Cert.Sage.Kern

open Cert.KernelIdeal Cert.KernelIdeal.Gen Idealize.ShloMosaic Idealize.ShloMosaic.TcCoe Idealize.SL.Sem

variable {F : FTy → Type} [FloatOps F]

/-- The mean aggregation as the kernel program's host operations compute it, applied to node features `h` and the
    edge list `e` (row 0 the sources, row 1 the destinations): the sum of the source rows at every destination,
    divided entrywise by the destination's in-degree clamped below by one. -/
def agg (h : (⟨S100000x128, .f32⟩ : BufTy).Contents (Elt F)) (e : (⟨S2x600000, .i32⟩ : BufTy).Contents (Elt F)) :
    (⟨S100000x128, .f32⟩ : BufTy).Contents (Elt F) :=
  Host.divf
    (Host.scatterAdd scatter_S100000x128_S600000x1_S600000x128_1_0_0_1
      (broadcastInDim S100000x128 ![] bcast_S_S100000x128 (constant (F := F) S_ .f32 0x00000000#32))
      (broadcastInDim S600000x1 ![0] bcast_S600000_S600000x1_0
        (shapeCast S600000 (extractStridedSlice S1x600000 ![1, 0] e slices_S2x600000_S1x600000_1_0) shapeCasts_S1x600000_S600000))
      (Host.gather gather_S100000x128_S600000x1_S600000x128_1_0_n_n_0_1_1128 h
        (broadcastInDim S600000x1 ![0] bcast_S600000_S600000x1_0
          (select
            (cmpi .slt
              (shapeCast S600000 (extractStridedSlice S1x600000 ![0, 0] e slices_S2x600000_S1x600000_0_0) shapeCasts_S1x600000_S600000)
              (broadcastInDim S600000 ![] bcast_S_S600000 (constantI S_ 32 0#32)))
            (addi
              (shapeCast S600000 (extractStridedSlice S1x600000 ![0, 0] e slices_S2x600000_S1x600000_0_0) shapeCasts_S1x600000_S600000)
              (broadcastInDim S600000 ![] bcast_S_S600000 (constantI S_ 32 100000#32)))
            (shapeCast S600000 (extractStridedSlice S1x600000 ![0, 0] e slices_S2x600000_S1x600000_0_0) shapeCasts_S1x600000_S600000)))))
    (broadcastInDim S100000x128 ![0, 1] bcast_S100000x1_S100000x128_0_1
      (broadcastInDim S100000x1 ![0] bcast_S100000_S100000x1_0
        (maximumf
          (Host.scatterAdd scatter_S100000_S600000x1_S600000_n_0_0_1
            (broadcastInDim S100000 ![] bcast_S_S100000 (constant (F := F) S_ .f32 0x00000000#32))
            (broadcastInDim S600000x1 ![0] bcast_S600000_S600000x1_0
              (shapeCast S600000 (extractStridedSlice S1x600000 ![1, 0] e slices_S2x600000_S1x600000_1_0) shapeCasts_S1x600000_S600000))
            (broadcastInDim S600000 ![] bcast_S_S600000 (constant (F := F) S_ .f32 0x3F800000#32)))
          (broadcastInDim S100000 ![] bcast_S_S100000 (constant (F := F) S_ .f32 0x3F800000#32)))))

/-- The same chain over source and destination vectors given apart (the second stretch reads them from buffers the
    first stretch filled). -/
def aggOf (h : (⟨S100000x128, .f32⟩ : BufTy).Contents (Elt F)) (s d : (⟨S600000, .i32⟩ : BufTy).Contents (Elt F)) :
    (⟨S100000x128, .f32⟩ : BufTy).Contents (Elt F) :=
  Host.divf
    (Host.scatterAdd scatter_S100000x128_S600000x1_S600000x128_1_0_0_1
      (broadcastInDim S100000x128 ![] bcast_S_S100000x128 (constant (F := F) S_ .f32 0x00000000#32))
      (broadcastInDim S600000x1 ![0] bcast_S600000_S600000x1_0
        d)
      (Host.gather gather_S100000x128_S600000x1_S600000x128_1_0_n_n_0_1_1128 h
        (broadcastInDim S600000x1 ![0] bcast_S600000_S600000x1_0
          (select
            (cmpi .slt
              s
              (broadcastInDim S600000 ![] bcast_S_S600000 (constantI S_ 32 0#32)))
            (addi
              s
              (broadcastInDim S600000 ![] bcast_S_S600000 (constantI S_ 32 100000#32)))
            s))))
    (broadcastInDim S100000x128 ![0, 1] bcast_S100000x1_S100000x128_0_1
      (broadcastInDim S100000x1 ![0] bcast_S100000_S100000x1_0
        (maximumf
          (Host.scatterAdd scatter_S100000_S600000x1_S600000_n_0_0_1
            (broadcastInDim S100000 ![] bcast_S_S100000 (constant (F := F) S_ .f32 0x00000000#32))
            (broadcastInDim S600000x1 ![0] bcast_S600000_S600000x1_0
              d)
            (broadcastInDim S600000 ![] bcast_S_S600000 (constant (F := F) S_ .f32 0x3F800000#32)))
          (broadcastInDim S100000 ![] bcast_S_S100000 (constant (F := F) S_ .f32 0x3F800000#32)))))

/-- The aggregation over an edge list is the chain over its two rows. -/
theorem agg_eq_aggOf (h : (⟨S100000x128, .f32⟩ : BufTy).Contents (Elt F)) (e : (⟨S2x600000, .i32⟩ : BufTy).Contents (Elt F)) :
    agg h e = aggOf h
      (shapeCast S600000 (extractStridedSlice S1x600000 ![0, 0] e slices_S2x600000_S1x600000_0_0) shapeCasts_S1x600000_S600000)
      (shapeCast S600000 (extractStridedSlice S1x600000 ![1, 0] e slices_S2x600000_S1x600000_1_0) shapeCasts_S1x600000_S600000) := rfl

/-! ## The two stretches from any contents -/

section AnyContents
variable (V : Valuation τ sig (Elt F))

set_option maxHeartbeats 1000000 in
/-- From any contents the first stretch leaves in `%22` the aggregation of `%arg0` along `%arg1`. -/
theorem after0_agg : StableHlo.after hostOps0 V (Proc.devRef .tc main_v22)
    = agg (V (Proc.devRef .tc main_arg0)) (V (Proc.devRef .tc main_arg1)) := by
  after_results
  rfl

/-- From any contents the first stretch leaves in `%1` row 0 of `%arg1` as a vector. -/
theorem after0_sources : StableHlo.after hostOps0 V (Proc.devRef .tc main_v1)
    = (shapeCast S600000 (extractStridedSlice S1x600000 ![0, 0] (V (Proc.devRef .tc main_arg1)) slices_S2x600000_S1x600000_0_0) shapeCasts_S1x600000_S600000) := by
  after_results
  rfl

/-- From any contents the first stretch leaves in `%3` row 1 of `%arg1` as a vector. -/
theorem after0_destinations : StableHlo.after hostOps0 V (Proc.devRef .tc main_v3)
    = (shapeCast S600000 (extractStridedSlice S1x600000 ![1, 0] (V (Proc.devRef .tc main_arg1)) slices_S2x600000_S1x600000_1_0) shapeCasts_S1x600000_S600000) := by
  after_results
  rfl

/-- From any contents the first stretch leaves in `%23` the vector `%arg3` as one row. -/
theorem after0_bias : StableHlo.after hostOps0 V (Proc.devRef .tc main_v23)
    = shapeCast S1x128 (V (Proc.devRef .tc main_arg3)) shapeCasts_S128_S1x128 := by
  after_results
  rfl

set_option maxHeartbeats 1000000 in
/-- From any contents the second stretch leaves in `%43` the chain over `%24`, the sources `%1` and the
    destinations `%3`. -/
theorem after1_agg : StableHlo.after hostOps1 V (Proc.devRef .tc main_v43)
    = aggOf (V (Proc.devRef .tc main_v24)) (V (Proc.devRef .tc main_v1)) (V (Proc.devRef .tc main_v3)) := by
  after_results
  rfl

/-- From any contents the second stretch leaves in `%44` the vector `%arg6` as one row. -/
theorem after1_bias : StableHlo.after hostOps1 V (Proc.devRef .tc main_v44)
    = shapeCast S1x128 (V (Proc.devRef .tc main_arg6)) shapeCasts_S128_S1x128 := by
  after_results
  rfl

end AnyContents

variable (m : (ℓ : Loc nD τ sig) → Buf (Elt F) ℓ) (ρ : Dev nD → PrngReg) (c : Dev nD)

/-! ## Buffers no host operation writes -/

/-- A buffer no operation of the first stretch writes holds its launch contents when region 0 is entered. -/
theorem W1_unwritten (b : Ref sig .tc)
    (hb : ∀ op ∈ (hostOps0 : List (HloOp τ sig (Elt F))), (Proc.devRef .tc b : DevRef τ sig) ∉ op.writes) :
    W1 m ρ c (Proc.devRef .tc b) = m ((c : Thread nD τ).loc b) :=
  StableHlo.after_of_forall_not_mem (b := Proc.devRef .tc b) _ _ hb

/-- A buffer no operation of the second stretch writes holds at region 1's entry what it held at region 0's exit. -/
theorem W3_unwritten (b : Ref sig .tc)
    (hb : ∀ op ∈ (hostOps1 : List (HloOp τ sig (Elt F))), (Proc.devRef .tc b : DevRef τ sig) ∉ op.writes) :
    W3 m ρ c (Proc.devRef .tc b) = W2 m ρ c (Proc.devRef .tc b) :=
  StableHlo.after_of_forall_not_mem (b := Proc.devRef .tc b) _ _ hb

/-- Decides that a named buffer is none of the first stretch's result buffers. -/
local macro "not_written0" : tactic =>
  `(tactic| exact List.forall_iff_forall_mem.mp (by
      simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))

/-- Decides that a named buffer is none of the second stretch's result buffers. -/
local macro "not_written1" : tactic =>
  `(tactic| exact List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))

/-! ## Region 0's entry -/

/-- Region 0's aggregate input is the mean aggregation of the launch features along the launch edges. -/
theorem V1_agg : V1 m ρ c main_v22 = agg (m ((c : Thread nD τ).loc main_arg0)) (m ((c : Thread nD τ).loc main_arg1)) :=
  after0_agg (W0 m ρ c)

theorem V1_arg0 : V1 m ρ c main_arg0 = m ((c : Thread nD τ).loc main_arg0) :=
  W1_unwritten m ρ c main_arg0 (by not_written0)
theorem V1_arg2 : V1 m ρ c main_arg2 = m ((c : Thread nD τ).loc main_arg2) :=
  W1_unwritten m ρ c main_arg2 (by not_written0)
theorem V1_arg4 : V1 m ρ c main_arg4 = m ((c : Thread nD τ).loc main_arg4) :=
  W1_unwritten m ρ c main_arg4 (by not_written0)

/-- Region 0's bias row is the first bias vector reshaped to one row. -/
theorem V1_bias : V1 m ρ c main_v23 = shapeCast S1x128 (m ((c : Thread nD τ).loc main_arg3)) shapeCasts_S128_S1x128 :=
  after0_bias (W0 m ρ c)

/-! ## Region 1's entry -/

/-- Region 0 leaves the edge sources as the first stretch computed them: row 0 of the launch edge list. -/
theorem W2_sources : W2 m ρ c (Proc.devRef .tc main_v1)
    = (shapeCast S600000 (extractStridedSlice S1x600000 ![0, 0] (m ((c : Thread nD τ).loc main_arg1)) slices_S2x600000_S1x600000_0_0) shapeCasts_S1x600000_S600000) :=
  (W2_of_ne m ρ c main_v1 (by decide)).trans (after0_sources (W0 m ρ c))

/-- Region 0 leaves the edge destinations as the first stretch computed them: row 1 of the launch edge list. -/
theorem W2_destinations : W2 m ρ c (Proc.devRef .tc main_v3)
    = (shapeCast S600000 (extractStridedSlice S1x600000 ![1, 0] (m ((c : Thread nD τ).loc main_arg1)) slices_S2x600000_S1x600000_1_0) shapeCasts_S1x600000_S600000) :=
  (W2_of_ne m ρ c main_v3 (by decide)).trans (after0_destinations (W0 m ρ c))

/-- Region 1's aggregate input is the mean aggregation of region 0's output along the launch edges. -/
theorem V3_agg : V3 m ρ c main_v43 = agg (W2 m ρ c (Proc.devRef .tc main_v24)) (m ((c : Thread nD τ).loc main_arg1)) :=
  calc V3 m ρ c main_v43
    _ = aggOf (W2 m ρ c (Proc.devRef .tc main_v24)) (W2 m ρ c (Proc.devRef .tc main_v1)) (W2 m ρ c (Proc.devRef .tc main_v3)) :=
          after1_agg (W2 m ρ c)
    _ = aggOf (W2 m ρ c (Proc.devRef .tc main_v24))
          (shapeCast S600000 (extractStridedSlice S1x600000 ![0, 0] (m ((c : Thread nD τ).loc main_arg1)) slices_S2x600000_S1x600000_0_0) shapeCasts_S1x600000_S600000)
          (shapeCast S600000 (extractStridedSlice S1x600000 ![1, 0] (m ((c : Thread nD τ).loc main_arg1)) slices_S2x600000_S1x600000_1_0) shapeCasts_S1x600000_S600000) := by
          rw [W2_sources, W2_destinations]
    _ = agg (W2 m ρ c (Proc.devRef .tc main_v24)) (m ((c : Thread nD τ).loc main_arg1)) := (agg_eq_aggOf _ _).symm

/-- Region 1 reads region 0's output as region 0 left it. -/
theorem V3_hidden : V3 m ρ c main_v24 = W2 m ρ c (Proc.devRef .tc main_v24) :=
  W3_unwritten m ρ c main_v24 (by not_written1)

theorem V3_arg5 : V3 m ρ c main_arg5 = m ((c : Thread nD τ).loc main_arg5) :=
  (W3_unwritten m ρ c main_arg5 (by not_written1)).trans
    ((W2_of_ne m ρ c main_arg5 (by decide)).trans (W1_unwritten m ρ c main_arg5 (by not_written0)))
theorem V3_arg7 : V3 m ρ c main_arg7 = m ((c : Thread nD τ).loc main_arg7) :=
  (W3_unwritten m ρ c main_arg7 (by not_written1)).trans
    ((W2_of_ne m ρ c main_arg7 (by decide)).trans (W1_unwritten m ρ c main_arg7 (by not_written0)))

/-- The second bias vector is as launched when region 0 is left. -/
theorem W2_arg6 : W2 m ρ c (Proc.devRef .tc main_arg6) = m ((c : Thread nD τ).loc main_arg6) :=
  (W2_of_ne m ρ c main_arg6 (by decide)).trans (W1_unwritten m ρ c main_arg6 (by not_written0))

/-- Region 1's bias row is the second bias vector reshaped to one row. -/
theorem V3_bias : V3 m ρ c main_v44 = shapeCast S1x128 (m ((c : Thread nD τ).loc main_arg6)) shapeCasts_S128_S1x128 :=
  (after1_bias (W2 m ρ c)).trans (by rw [W2_arg6])

/-- A vector of 128 reshaped to one row reads its entry `q` at `(0, q)`. -/
theorem bias_apply (b : (⟨S128, .f32⟩ : BufTy).Contents (Elt F)) (q : Fin 128) :
    shapeCast S1x128 b shapeCasts_S128_S1x128 (ValueIdx.ix2 (0 : Fin 1) q) = b (ValueIdx.ix1 q) :=
  ValueIdx.shapeCast_a_1a_apply b shapeCasts_S128_S1x128 0 q

end Cert.Sage.Kern
-- ==== Proof.WholeValue.lean ====
/-
  The kernel program's result array, as two stacked layers of the launch arrays.

  The first region's output (the hidden features) is the rectified stage of what the first host stretch left: the
  aggregate of the input features along the edges, the input features, the first layer's weights and its bias as
  one row. The second host stretch aggregates the hidden features along the same edges, and the second region's
  output is the stage of that aggregate, the hidden features, the second layer's weights and bias. A bias reshaped
  to one row reads its entry `q` at `(0, q)`. The aggregation chain is, operation for operation, the reference's.
-/
import proofs.«120012_j16690242913041_1_alg».proof.Proof.Region0Value
import proofs.«120012_j16690242913041_1_alg».proof.Proof.Region1Value
import proofs.«120012_j16690242913041_1_alg».proof.Proof.HostValues
import proofs.«120012_j16690242913041_1_alg».proof.Proof.RefValue

set_option maxRecDepth 16384

noncomputable section

namespace Cert.Sage.Whole

open Cert.KernelIdeal Cert.KernelIdeal.Gen Cert.Sage Cert.Sage.Region Cert.Sage.Kern
open Idealize.ShloMosaic Idealize.ShloMosaic.TcCoe Idealize.ShloMosaic.ValueIdx Idealize.SL.Sem

/-- The two programs aggregate alike: the kernel program's chain of host operations is the reference's, operation by
    operation, over shape records that differ in name only. -/
theorem agg_same : Kern.agg (F := Ideal) = Cert.Sage.Ref.agg := by
  funext h e
  rfl

variable (m : (ℓ : Loc nD τ sig) → Buf (Elt Ideal) ℓ) (ρ : Dev nD → PrngReg) (c : Dev nD)

/-- The hidden features: what the first region leaves in its output array, of the launch arrays. -/
theorem hidden_value :
    W2 m ρ c (Proc.devRef .tc main_v24)
      = relu (lin (Kern.agg (F := Ideal) (m ((c : Thread nD τ).loc main_arg0)) (m ((c : Thread nD τ).loc main_arg1))) (m ((c : Thread nD τ).loc main_arg0))
          (m ((c : Thread nD τ).loc main_arg2)) (fun q => m ((c : Thread nD τ).loc main_arg3) (ix1 q)) (m ((c : Thread nD τ).loc main_arg4))) := by
  refine (W2_arr m ρ c 5).trans ((value0 (V1 m ρ) c).trans ?_)
  show relu (lin (V1 m ρ c main_v22) (V1 m ρ c main_arg0) (V1 m ρ c main_arg2) (fun q => V1 m ρ c main_v23 (ix2 (0 : Fin 1) q)) (V1 m ρ c main_arg4)) = _
  rw [V1_agg, V1_arg0, V1_arg2, V1_arg4, V1_bias]
  simp only [bias_apply (F := Ideal) (m ((c : Thread nD τ).loc main_arg3))]

/-- The result array at the last boundary: two stacked layers of the launch arrays. -/
theorem result_value :
    W4 m ρ c (Proc.devRef .tc main_v45)
      = twoLayers (E := (⟨S2x600000, .i32⟩ : BufTy).Contents (Elt Ideal)) (Kern.agg (F := Ideal))
          (m ((c : Thread nD τ).loc main_arg0)) (m ((c : Thread nD τ).loc main_arg1))
          (m ((c : Thread nD τ).loc main_arg2)) (fun q => m ((c : Thread nD τ).loc main_arg3) (ix1 q)) (m ((c : Thread nD τ).loc main_arg4))
          (m ((c : Thread nD τ).loc main_arg5)) (fun q => m ((c : Thread nD τ).loc main_arg6) (ix1 q)) (m ((c : Thread nD τ).loc main_arg7)) := by
  refine (W4_arr m ρ c 5).trans ((value1 (V3 m ρ) c).trans ?_)
  show lin (V3 m ρ c main_v43) (V3 m ρ c main_v24) (V3 m ρ c main_arg5) (fun q => V3 m ρ c main_v44 (ix2 (0 : Fin 1) q)) (V3 m ρ c main_arg7) = _
  rw [V3_agg, V3_hidden, V3_arg5, V3_arg7, V3_bias, hidden_value]
  simp only [bias_apply (F := Ideal) (m ((c : Thread nD τ).loc main_arg6))]
  rfl

end Cert.Sage.Whole

end
-- ==== Proof.lean ====
/-
  Two GraphSAGE layers with mean aggregation: the fused kernel program against its jnp reference.

  Each layer sends node features `x` to `agg · W_l + b + x · W_r`, `agg` the mean of a node's in-neighbours' features;
  the first layer is rectified. Both programs aggregate on the host with the same operations (a gather along the
  edges' sources, a scatter-add into their destinations, a division by the in-degree clamped below by one). The kernel
  program computes each layer's two products, bias and rectifier in one fused region over 20 blocks of 5000 rows,
  its operands narrowed to bf16 first; the reference computes them as two whole-array products. On the extended reals
  a change of float format is the identity and a product accumulated from zero is the plain sum over the 128 shared
  features, so each region's output array is, entry by entry, the same sum the reference's stage is — in the same
  association, `(∑ₖ agg[p,k]·W_l[k,q] + b[q]) + ∑ₖ x[p,k]·W_r[k,q]` — and no law of the extended reals is needed: the
  precondition is never opened.

  The frames of the two kernel programs are the generated ones; the reference's is its generated run with the result
  dropped; the idealization rewrote no operation, so `preserves` asks nothing. For `algebraic` the kernel program's
  run is re-posted with its result array named, that array is read back through the two regions and the two host
  stretches as the specification `Cert.Sage.twoLayers` of the launch arrays, and the reference's generated run is read
  as the same specification.
-/
import proofs.«120012_j16690242913041_1_alg».proof.Defs
import proofs.«120012_j16690242913041_1_alg».proof.Proof.Gen.Kernel
import proofs.«120012_j16690242913041_1_alg».proof.Proof.Gen.Kernel.Skeleton
import proofs.«120012_j16690242913041_1_alg».proof.Proof.Gen.Kernel.Launch
import proofs.«120012_j16690242913041_1_alg».proof.Proof.Gen.Kernel.Points
import proofs.«120012_j16690242913041_1_alg».proof.Proof.Gen.Kernel.Frame
import proofs.«120012_j16690242913041_1_alg».proof.Proof.Gen.KernelIdeal
import proofs.«120012_j16690242913041_1_alg».proof.Proof.Gen.KernelIdeal.Skeleton
import proofs.«120012_j16690242913041_1_alg».proof.Proof.Gen.KernelIdeal.Launch
import proofs.«120012_j16690242913041_1_alg».proof.Proof.Gen.KernelIdeal.Points
import proofs.«120012_j16690242913041_1_alg».proof.Proof.Gen.KernelIdeal.Frame
import proofs.«120012_j16690242913041_1_alg».proof.Proof.Gen.ReferenceIdeal
import proofs.«120012_j16690242913041_1_alg».proof.Proof.Gen.ReferenceIdeal.Run
import proofs.«120012_j16690242913041_1_alg».proof.Proof.Gen.ReferenceIdeal.Read
import proofs.«120012_j16690242913041_1_alg».proof.Proof.Gen.Pre_finite_inputs
import proofs.«120012_j16690242913041_1_alg».proof.Proof.KernelRun
import proofs.«120012_j16690242913041_1_alg».proof.Proof.RefValue
import proofs.«120012_j16690242913041_1_alg».proof.Proof.WholeValue
import Idealize.ShloMosaic.Adequacy
import Idealize.ShloMosaic.Init

noncomputable section

namespace Cert.Proof

open Idealize.ShloMosaic Idealize.SL.Sem

/-- The word-level kernel program terminates, faults nowhere and leaves its arguments as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the two stacked layers of those arguments
    in their result arrays: the kernel program's array read back through its regions and host stretches, the
    reference's run read stage by stage, and the two aggregation chains one function. -/
theorem algebraic : Cert.algebraic_KernelIdeal_ReferenceIdeal := by
  intro m ρ m' ρ' _ hagree
  refine ⟨_, (θ_run Cert.KernelIdeal.defs _ _).mono (fun r h c => ⟨(h c).1.trans (Cert.Sage.Whole.result_value m ρ c), (h c).2⟩)
    (Cert.KernelIdeal.Launched.run_result (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v58_eq, a0, a1, a2, a3, a4, a5, a6, a7, Cert.Sage.Ref.value, Cert.Sage.Whole.agg_same]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
